-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000 .f32) (main_arg2 : IVec S1600000 32) (main_arg3 : IVec S1600000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 24
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LinearSpec.lean ====
/-
  The dense layer both programs end with, as ONE array-valued function of its three inputs: the aggregated
  node features `h` (100000 rows of 64), the weight `w` (64 × 64) and the bias `b` (64 entries). Entry (r, j) is
      Σ_k h[r, k] · w[k, j]  +  b[j]
  on the extended reals: row r of `h` against column j of `w`, then the bias of column j. The kernel computes
  it 10000 rows at a time; the reference computes it in one piece. Nothing below depends on either program.
-/
import Idealize.ShloMosaic.PureOps.Ideal
import Idealize.ShloMosaic.Lib.ValueIdx

noncomputable section

namespace Cert.Linear

open Idealize.ShloMosaic Idealize.ShloMosaic.ValueIdx

/-- The shapes of the aggregated features, of the weight and of the bias. -/
abbrev SNodes : Shape := ⟨2, ![100000, 64]⟩
abbrev SWeight : Shape := ⟨2, ![64, 64]⟩
abbrev SBias : Shape := ⟨1, ![64]⟩

/-- `h · w + b`, entry by entry: the inner product of a row of `h` with a column of `w`, plus that column's bias. -/
def G (h : FVec Ideal SNodes .f32) (w : FVec Ideal SWeight .f32) (b : FVec Ideal SBias .f32) : FVec Ideal SNodes .f32 :=
  fun i => (∑ k : Fin 64, h (ix2 (n0 := 100000) (n1 := 64) (i 0) k) * w (ix2 (n0 := 64) (n1 := 64) k (i 1)))
    + b (ix1 (n := 64) (i 1))

/-- `G` read at a row `r` and a column `j`. -/
theorem G_apply (h : FVec Ideal SNodes .f32) (w : FVec Ideal SWeight .f32) (b : FVec Ideal SBias .f32)
    (r : Fin 100000) (j : Fin 64) :
    G h w b (ix2 r j) = (∑ k : Fin 64, h (ix2 r k) * w (ix2 k j)) + b (ix1 j) := rfl

end Cert.Linear

end
-- ==== Proof.RefLinear.lean ====
/-
  The reference's result is the dense layer `G` of the aggregated features: its last four operations are a
  contraction of `h` (the scatter-added messages) with the weight over the shared axis of length 64, the bias
  broadcast first to one row and then to all 100000 rows, and an entrywise sum. Read at an entry (r, j) these are
  Σ_k h[r, k] · w[k, j] and b[j], which is `G` there. The operations before them (the gather of source rows, the scaling by the edge weight,
  the scatter-add into destination rows) are left as the one term `h` and never opened.
-/
import proofs.«114905_j37709812859403_1_alg».proof.Proof.Gen.ReferenceIdeal.Read
import proofs.«114905_j37709812859403_1_alg».proof.Proof.LinearSpec

noncomputable section

namespace Cert.ReferenceIdeal.RefLinear

open Cert.ReferenceIdeal Cert.ReferenceIdeal.Read Idealize.ShloMosaic Idealize.ShloMosaic.ValueIdx Cert.Linear

/-- The contraction reads row `i 0` of its left operand at column `k` … -/
theorem lidx_eq (i : S100000x64.Idx) (k : Fin 64) : lidx_main_v13 i k = ix2 (n0 := 100000) (n1 := 64) (i 0) k :=
  funext fun a => Fin.ext (by match a with | ⟨0, _⟩ => rfl | ⟨1, _⟩ => rfl)

/-- … and row `k` of its right operand at column `i 1`. -/
theorem ridx_eq (i : S100000x64.Idx) (k : Fin 64) : ridx_main_v13 i k = ix2 (n0 := 64) (n1 := 64) k (i 1) :=
  funext fun a => Fin.ext (by match a with | ⟨0, _⟩ => rfl | ⟨1, _⟩ => rfl)

/-- The two broadcasts of the bias read entry `i 1` of it, whatever the row. -/
theorem bidx_eq (i : S100000x64.Idx) : idx_main_v14 (idx_main_v15 i) = ix1 (n := 64) (i 1) :=
  funext fun a => Fin.ext (by match a with | ⟨0, _⟩ => rfl)

/-- The reference's result, as a function of its six arguments, is `G` of the aggregated features, the weight and the bias. -/
theorem result_eq (x0 : (⟨S100000x64, .f32⟩ : BufTy).Contents (Elt Ideal)) (x1 : (⟨S1600000, .f32⟩ : BufTy).Contents (Elt Ideal))
    (x2 x3 : (⟨S1600000, .i32⟩ : BufTy).Contents (Elt Ideal)) (x4 : (⟨S64x64, .f32⟩ : BufTy).Contents (Elt Ideal))
    (x5 : (⟨S64, .f32⟩ : BufTy).Contents (Elt Ideal)) :
    val_main_v16 (F := Ideal) x0 x1 x2 x3 x4 x5 = G (val_main_v12 (F := Ideal) x0 x1 x2 x3) x4 x5 := by
  funext i
  rw [val_main_v16_apply, val_main_v13_apply, val_main_v15_apply, val_main_v14_apply]
  simp only [lidx_eq, ridx_eq, bidx_eq]
  rfl

end Cert.ReferenceIdeal.RefLinear

end
-- ==== Proof.BlockPayload.lean ====
/-
  What the kernel body stores for one block of 10000 rows, read at an entry. The body loads the block `x0` of the
  aggregated features, the whole weight `x1` and the bias `x2` as a single row, narrows the two matrix operands
  to bf16 (the identity on extended reals), multiplies them into a zero accumulator (so the entry is the plain inner
  product of a row of `x0` with a column of `x1`), and adds the bias row broadcast down the 10000 rows. At an entry (p, q):
      Σ_k x0[p, k] · x1[k, q]  +  x2[0, q].
-/
import proofs.«114905_j37709812859403_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockPayload

open Cert.KernelIdeal Cert.KernelIdeal.Gen Idealize.ShloMosaic Idealize.ShloMosaic.ValueIdx

/-! ## The block product's operand indices, axis by axis -/

theorem lhs_blk_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blk_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blk_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blk_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at an entry (p, q): row `p` of the left operand against column `q` of the right one. -/
theorem block_product_apply {φ₁ φ₂ : FTy} (l : FVec Ideal S10000x64 φ₁) (r : FVec Ideal S64x64 φ₂) (p : Fin 10000) (q : Fin 64) :
    matmul (F := Ideal) dot_S10000x64_S64x64_S10000x64_1_0_0_1_n_n none l r (constant (F := Ideal) S10000x64 .f32 0x00000000#32) (ix2 p q)
      = ∑ k : Fin 64, l (ix2 p k) * r (ix2 k q) := by
  show FloatOps.matmul _ _ _ _ _ _ = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The bias row broadcast down the block's rows reads entry (0, q) of the row at every (p, q). -/
theorem bias_rows_apply (v : FVec Ideal S1x64 .f32) (p : Fin 10000) (q : Fin 64) :
    broadcastTo S10000x64 v broadcasts_S1x64_S10000x64 (ix2 p q) = v (ix2 (0 : Fin 1) q) :=
  broadcastTo_apply v broadcasts_S1x64_S10000x64 (ix2 p q) (ix2 (0 : Fin 1) q) (fun a => by
    match a with
    | ⟨0, _⟩ => show 0 = if (1 : Nat) = 1 then 0 else p.val; rw [if_pos rfl]
    | ⟨1, _⟩ => show q.val = if (64 : Nat) = 1 then 0 else q.val; rw [if_neg (by decide)])

/-- THE PAYLOAD AT AN ENTRY (p, q): the inner product of row `p` of the feature block with column `q` of the weight, plus the bias of column `q`. -/
theorem pay_apply (x0 : Vec Ideal S10000x64 .f32) (x1 : Vec Ideal S64x64 .f32) (x2 : Vec Ideal S1x64 .f32) (p : Fin 10000) (q : Fin 64) :
    k0_pay1 (F := Ideal) x0 x1 x2 (ix2 p q)
      = (∑ k : Fin 64, x0 (ix2 p k) * x1 (ix2 k q)) + x2 (ix2 (0 : Fin 1) q) := by
  unfold k0_pay1
  rw [addf_apply, block_product_apply, bias_rows_apply, shapeCast_self, shapeCast_self]
  rfl

end Cert.KernelIdeal.BlockPayload

end
-- ==== Proof.HostPrefix.lean ====
/-
  What the kernel's region finds in the two arrays @main computes before it. The aggregated features `h` (the
  source rows gathered, scaled by the edge weights and scatter-added into the destination rows) are computed by the
  same seventeen operations, over the same literals, as in the reference: the region's array IS the reference's
  stage for `h` as a function of the four arguments it depends on, and the term is never opened. The bias is
  reshaped from 64 entries to one row of 64: entry (0, q) of the row is entry q of the bias.
-/
import proofs.«114905_j37709812859403_1_alg».proof.Proof.Gen.KernelIdeal.Frame
import proofs.«114905_j37709812859403_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated features as the region finds them: the reference's own stage for them, at the kernel's arguments. -/
theorem features_eq (c : Dev nD) :
    (V m c main_v12 : S100000x64.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The bias row as the region finds it: the bias argument, its 64 entries laid out as one row. -/
theorem bias_row_eq (c : Dev nD) :
    (V m c main_v13 : S1x64.Idx → EReal)
      = shapeCast S1x64 (m ((c : Thread nD τ).loc main_arg5) : S64.Idx → EReal) shapeCasts_S64_S1x64 := by
  dsimp only [Gen.V, Gen.hostOps0]
  after_results
  rfl

/-- Entry (0, q) of the bias row is entry q of the bias. -/
theorem bias_row_apply (c : Dev nD) (q : Fin 64) :
    (V m c main_v13 : S1x64.Idx → EReal) (ix2 (0 : Fin 1) q) = (m ((c : Thread nD τ).loc main_arg5) : S64.Idx → EReal) (ix1 q) := by
  rw [bias_row_eq]
  refine shapeCast_apply _ _ _ _ ?_
  show (S64.rowMajor (ix1 q)).val = (S1x64.rowMajor (ix2 (0 : Fin 1) q)).val
  rw [Shape.rowMajor_val_one, Shape.rowMajor_val_two]
  show q.val = 0 * 64 + q.val
  omega

end Cert.KernelIdeal.HostPrefix

end
-- ==== Proof.BlocksToArray.lean ====
/-
  From the kernel's ten blocks to its result array. Grid point `t` reads rows `10000·t … 10000·t + 9999` of the
  aggregated features, the whole weight and the bias row, and writes the same rows of the result. Its stored value at
  an entry (p, q) of the block is Σ_k x0[p, k] · x1[k, q] + x2[0, q], and x0[p, k] is entry (10000·t + p, k) of the
  features, so point `t` writes block `t` of the dense layer `G` of the features, the weight and the bias. Row `r`
  of the result lies in block `r / 10000`, so the ten blocks cover the array and it ends holding `G`.
-/
import proofs.«114905_j37709812859403_1_alg».proof.Proof.Gen.KernelIdeal.Value
import proofs.«114905_j37709812859403_1_alg».proof.Proof.LinearSpec
import proofs.«114905_j37709812859403_1_alg».proof.Proof.BlockPayload
import proofs.«114905_j37709812859403_1_alg».proof.Proof.HostPrefix

noncomputable section

namespace Cert.KernelIdeal.LinearValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The dense layer of the aggregated features as the region finds them, the weight and the bias. -/
abbrev layer (c : Dev nD) : S100000x64.Idx → EReal :=
  Cert.Linear.G (V m c main_v12) (V m c main_arg4) (m ((c : Thread nD τ).loc main_arg5))

theorem zero_offsets : (![0, 0] : Fin 2 → Nat) = fun _ => 0 := funext fun a => by fin_cases a <;> rfl

/-- The printed index maps, decided over the ten grid points: the feature window and the result window are on
    row block `t`, the weight and the bias row stay on their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is one of ten. -/
theorem point_lt (t : Fin cfg0.N) : t.val < 10 := Nat.lt_of_lt_of_eq t.isLt (N_0 : cfg0.N = 10)

/-- Row `p` of block `t` is row `10000·t + p` of the array. -/
def row (t : Fin cfg0.N) (p : Fin 10000) : Fin 100000 :=
  ⟨t.val * 10000 + p.val, by have ht := point_lt t; have hp := p.isLt; omega⟩

theorem row_val (t : Fin cfg0.N) (p : Fin 10000) : (row t p).val = t.val * 10000 + p.val := rfl

/-! The windows' blocks, read off ANY contents `X` of their arrays (the arrays' actual contents are long terms
    of the arguments; nothing here looks inside them). -/

/-- The feature window's block at point `t`, read at (p, k): the array at (10000·t + p, k). -/
theorem features_read (X : S100000x64.Idx → EReal) (t : Fin cfg0.N) (p : Fin 10000) (k : Fin 64) :
    ((cfg0.win 0).blk t).view.read (Elt Ideal) X (ix2 p k) = X (ix2 (row t p) k) := by
  obtain ⟨e0, e1, -⟩ := block_indices t
  rw [View.read_apply]
  refine congrArg X (funext fun a => Fin.ext ?_)
  match a with
  | ⟨0, _⟩ => show win0_0.index t (0 : Fin 2) * 10000 + 1 * p.val = (row t p).val; rw [e0, row_val]; omega
  | ⟨1, _⟩ => show win0_0.index t (1 : Fin 2) * 64 + 1 * k.val = k.val; rw [e1]; omega

/-- The weight window's one block is the whole array. -/
theorem weight_read (X : S64x64.Idx → EReal) (t : Fin cfg0.N) (k q : Fin 64) :
    ((cfg0.win 1).blk t).view.read (Elt Ideal) X (ix2 k q) = X (ix2 k q) := by
  obtain ⟨-, -, e0, e1, -⟩ := block_indices t
  rw [View.read_apply]
  refine congrArg X (funext fun a => Fin.ext ?_)
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The bias window's one block is the whole row. -/
theorem bias_read (X : S1x64.Idx → EReal) (t : Fin cfg0.N) (q : Fin 64) :
    ((cfg0.win 2).blk t).view.read (Elt Ideal) X (ix2 (0 : Fin 1) q) = X (ix2 (0 : Fin 1) q) := by
  obtain ⟨-, -, -, -, e0, e1, -⟩ := block_indices t
  rw [View.read_apply]
  refine congrArg X (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

/-- Entry (p, q) of the result window's block at point `t` is entry (10000·t + p, q) of the array. -/
theorem result_block_index (t : Fin cfg0.N) (p : Fin 10000) (q : Fin 64) :
    ((cfg0.win 3).blk t).view.emb (ix2 p q) = (ix2 (row t p) q : S100000x64.Idx) := by
  obtain ⟨-, -, -, -, -, -, e0, e1⟩ := block_indices t
  refine funext fun a => Fin.ext ?_
  match a with
  | ⟨0, _⟩ => show win0_3.index t (0 : Fin 2) * 10000 + 1 * p.val = (row t p).val; rw [e0, row_val]; omega
  | ⟨1, _⟩ => show win0_3.index t (1 : Fin 2) * 64 + 1 * q.val = q.val; rw [e1]; omega

/-- THE BLOCK LAW, over any contents `H`, `W`, `B2` of the three staged arrays and any `b` whose entries are the
    row `B2`'s: the body's stored value for the blocks of `H`, `W` and `B2` at point `t` is block `t` of the dense layer
    of `H`, `W` and `b` — entry (p, q) of the block is entry (10000·t + p, q) of the layer. -/
theorem block_law (H : S100000x64.Idx → EReal) (W : S64x64.Idx → EReal) (B2 : S1x64.Idx → EReal) (b : S64.Idx → EReal)
    (hb : ∀ q : Fin 64, B2 (ix2 (0 : Fin 1) q) = b (ix1 q)) (t : Fin cfg0.N) :
    (cfg0.win 3).cut (grid0.coords t)
        (k0_pay1 (F := Ideal) (((cfg0.win 0).blk t).view.read (Elt Ideal) H) (((cfg0.win 1).blk t).view.read (Elt Ideal) W)
          (((cfg0.win 2).blk t).view.read (Elt Ideal) B2))
      = ((cfg0.win 3).blk t).view.read (Elt Ideal) (Cert.Linear.G H W b) := by
  funext j
  obtain ⟨p, q, rfl⟩ : ∃ (p : Fin 10000) (q : Fin 64), j = ix2 p q := ⟨j 0, j 1, eq_ix2 j⟩
  rw [View.read_apply]
  show k0_pay1 (F := Ideal) (((cfg0.win 0).blk t).view.read (Elt Ideal) H) (((cfg0.win 1).blk t).view.read (Elt Ideal) W)
      (((cfg0.win 2).blk t).view.read (Elt Ideal) B2) (ix2 p q)
    = Cert.Linear.G H W b (((cfg0.win 3).blk t).view.emb (ix2 p q))
  rw [result_block_index, Cert.Linear.G_apply]
  refine (Cert.KernelIdeal.BlockPayload.pay_apply (((cfg0.win 0).blk t).view.read (Elt Ideal) H)
    (((cfg0.win 1).blk t).view.read (Elt Ideal) W) (((cfg0.win 2).blk t).view.read (Elt Ideal) B2) p q).trans ?_
  rw [bias_read, hb]
  refine congrArg (· + b (ix1 q)) (Finset.sum_congr rfl fun k _ => ?_)
  rw [features_read, weight_read]

/-- WHAT POINT `t` WRITES BACK is block `t` of the dense layer: the block law at the arrays the region finds. -/
theorem flushed_eq (c : Dev nD) (t : Fin cfg0.N) :
    (dats m 0 c).flushed 3 t = ((cfg0.win 3).blk t).view.read (Elt Ideal) (layer m c) := by
  rw [Cert.KernelIdeal.Value.flushed3]
  unfold out0_3
  rw [View.canon_unit_zero zero_offsets]
  simp only [View.ld_unit_zero (S := S10000x64) zero_offsets, View.ld_unit_zero (S := S64x64) zero_offsets,
    View.ld_unit_zero (S := S1x64) zero_offsets]
  unfold iblk
  exact block_law (V m c (Pipeline.arrRef spec0 0)) (V m c (Pipeline.arrRef spec0 1)) (V m c (Pipeline.arrRef spec0 2))
    (m ((c : Thread nD τ).loc main_arg5)) (Cert.KernelIdeal.HostPrefix.bias_row_apply m c) t

/-- An index of the array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v14).slice (win0_3.rect t)).set ↔ _
  rw [View.set_slice_whole, Rect.mem_set_unit]
  exact Iff.rfl

/-- Every index of the result array is in the block of the point its row falls in. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, e0, e1⟩ := block_indices t
  have ht : t.val = (i 0).val / 10000 := rfl
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

/-- THE RESULT ARRAY after the run is the dense layer of the features as the region finds them. -/
theorem final (c : Dev nD) : (dats m 0 c).arrAt 3 cfg0.N = layer m c :=
  (dats m 0 c).arrAt_eq_of_cover 3 (layer m c) (fun t _ => flushed_eq m c t) covered

/-- … which is the dense layer of the reference's own stage for the features, at the kernel's arguments. -/
theorem layer_eq (c : Dev nD) :
    layer m c = Cert.Linear.G
      (Cert.ReferenceIdeal.Read.val_main_v12 (F := Ideal) (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  unfold layer
  rw [Cert.KernelIdeal.HostPrefix.features_eq, V_main_arg4]

/-- The kernel's run, its result named: every weakly fair execution ends with the result array at the dense layer of
    the aggregated features (as a function of the arguments) and the arguments unchanged. -/
theorem run : θ_run defs (onTc (τ := τ) (main (F := Ideal))) ⟨m, fun _ => 0, ρ⟩ fun r => ∀ c : Dev nD,
      r.2.mem ((c : Thread nD τ).loc main_v14) = Cert.Linear.G
        (Cert.ReferenceIdeal.Read.val_main_v12 (F := Ideal) (m ((c : Thread nD τ).loc main_arg0)) (m ((c : Thread nD τ).loc main_arg1))
          (m ((c : Thread nD τ).loc main_arg2)) (m ((c : Thread nD τ).loc main_arg3)))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (layer_eq m c)), (h c).2⟩)
    (Cert.KernelIdeal.Value.run_blocks m ρ)

end Cert.KernelIdeal.LinearValue

end
-- ==== Proof.lean ====
/-
  A graph layer: every edge carries the feature row of its source node scaled by the edge's weight, the messages are
  summed into their destination nodes (100000 nodes, 64 features: the array `h`), and a dense layer `h · W + b`
  follows. Kernel and reference compute `h` by the same host operations over the same literals; they differ in the
  dense layer only. The kernel takes it ten blocks of 10000 rows at a time, each block a matrix product of bf16-narrowed
  operands into a zero accumulator plus the bias row broadcast down the block; the reference takes one contraction of
  the whole `h` with `W` plus the bias broadcast to every row. On the extended reals narrowing is the identity and
  both are, at entry (r, j),
      Σ_k h[r, k] · W[k, j]  +  b[j]
  with the sum over the same 64 terms in the same order: no law of arithmetic is needed beyond `0 + x = x`, and the
  finiteness of the inputs is never used.

  The modules: Proof/LinearSpec.lean states that function (`G`); Proof/RefLinear.lean reads the reference's last four
  operations as `G` of its own stage for `h`; Proof/BlockPayload.lean reads the kernel body's stored value at an entry;
  Proof/HostPrefix.lean identifies the arrays the kernel's region finds (the same stage for `h`; the bias as one row);
  Proof/BlocksToArray.lean goes from the ten blocks to the whole result array. Below, the three frames, the (empty)
  idealization ledger, and the equality of the two results.
-/
import proofs.«114905_j37709812859403_1_alg».proof.Defs
import proofs.«114905_j37709812859403_1_alg».proof.Proof.Gen.Kernel
import proofs.«114905_j37709812859403_1_alg».proof.Proof.Gen.Kernel.Skeleton
import proofs.«114905_j37709812859403_1_alg».proof.Proof.Gen.Kernel.Launch
import proofs.«114905_j37709812859403_1_alg».proof.Proof.Gen.Kernel.Points
import proofs.«114905_j37709812859403_1_alg».proof.Proof.Gen.Kernel.Frame
import proofs.«114905_j37709812859403_1_alg».proof.Proof.Gen.KernelIdeal
import proofs.«114905_j37709812859403_1_alg».proof.Proof.Gen.KernelIdeal.Skeleton
import proofs.«114905_j37709812859403_1_alg».proof.Proof.Gen.KernelIdeal.Launch
import proofs.«114905_j37709812859403_1_alg».proof.Proof.Gen.KernelIdeal.Points
import proofs.«114905_j37709812859403_1_alg».proof.Proof.Gen.KernelIdeal.Frame
import proofs.«114905_j37709812859403_1_alg».proof.Proof.Gen.ReferenceIdeal
import proofs.«114905_j37709812859403_1_alg».proof.Proof.Gen.Pre_finite_inputs
import proofs.«114905_j37709812859403_1_alg».proof.Proof.Gen.KernelIdeal.Value
import proofs.«114905_j37709812859403_1_alg».proof.Proof.Gen.ReferenceIdeal.Run
import proofs.«114905_j37709812859403_1_alg».proof.Proof.Gen.ReferenceIdeal.Read
import proofs.«114905_j37709812859403_1_alg».proof.Proof.LinearSpec
import proofs.«114905_j37709812859403_1_alg».proof.Proof.RefLinear
import proofs.«114905_j37709812859403_1_alg».proof.Proof.BlocksToArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the kernel on the extended reals is the printed kernel's own text. -/
theorem preserves : Cert.preserves_Kernel_KernelIdeal := trivial

/-- From memories that agree on the six arguments both programs end with the result array at the dense layer `G` of
    the aggregated features, the weight and the bias: the kernel block by block, the reference in one piece. -/
theorem algebraic : Cert.algebraic_KernelIdeal_ReferenceIdeal := by
  intro m ρ m' ρ' _ hagree
  refine ⟨_, Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefLinear.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
